-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S512x4096 : Shape := ⟨2, ![512, 4096]⟩
abbrev S256x4096 : Shape := ⟨2, ![256, 4096]⟩
abbrev S1x256 : Shape := ⟨2, ![1, 256]⟩
abbrev S512x256 : Shape := ⟨2, ![512, 256]⟩

abbrev nBuf : Space → Nat
  | .hbm => 5
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S256x4096, .f32⟩
  | .local _ .vmem, ⟨3, _⟩ => ⟨S256x4096, .f32⟩
  | .local _ .vmem, ⟨4, _⟩ => ⟨S1x256, .f32⟩
  | .local _ .vmem, ⟨5, _⟩ => ⟨S1x256, .f32⟩
  | .local _ .vmem, ⟨6, _⟩ => ⟨S512x256, .f32⟩
  | .local _ .vmem, ⟨7, _⟩ => ⟨S512x256, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x4096.size a
  hwx0_2 : ∀ i : grid0.Coords, EltTy.bits .f32 = 32 ∨ (Rect.block (s := S1x4096) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S8192x4096.size a
  hwx0_3 : ∀ i : grid0.Coords, EltTy.bits .f32 = 32 ∨ (Rect.block (s := S8192x4096) S512x256.size (cc0_transform_3 i) (hinb0_3 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S1x4096, .f32⟩
  | .hbm, ⟨5, _⟩ => ⟨S8192x4096, .f32⟩
  | .hbm, ⟨6, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.LibMatmulRowsByRows.lean ====
/-
  A matrix product of two operands that share their SECOND axis — rows of the left against rows of the right, the
  product `A · Bᵀ` — read at an index, at the ideal values.

  For dimension numbers `d` over shapes [M, K] × [N, K] → [M, N] that contract axis 1 of both operands, keep the left
  operand's rows as the result's rows and the right operand's rows as the result's columns, the product accumulated into
  the zero splat is, at `(p, o)`, the sum over `k` of `A (p, k) · B (o, k)`. The record enters only through four facts about
  its index maps, so the lemma serves any record of this form whatever its name: the library's sum over the record's
  contraction index set is re-indexed by that set's single coordinate, and each operand's index is then read axis by axis.
-/
import Idealize.ShloMosaic.PureOps.Ideal.Laws
import Idealize.ShloMosaic.Lib.ValueIdx

noncomputable section

open scoped BigOperators
open Idealize.ShloMosaic Idealize.ShloMosaic.ValueIdx

namespace Cert.LibMatmulRowsByRows

/-- `matmul d prec A B 0 (p, o) = ∑ k : Fin K, A (p, k) * B (o, k)` for a record `d` with one contracted axis of extent `K`
    (`hr`, `hs`) whose left index at `(i, q)` is `(i 0, q)` and whose right index is `(i 1, q)`. For a printed record `hl0` and
    `hr0` unfold the index map on a kept axis (not a batch axis, a non-contracting one) and `hl1`, `hr1` are
    `DotDims.lhsIdx_val_of_single` / `DotDims.rhsIdx_val_of_single`. -/
theorem matmul_zero_apply {M K N : ℕ} {φ₁ φ₂ : FTy}
    (d : DotDims ⟨2, ![M, K]⟩ ⟨2, ![N, K]⟩ ⟨2, ![M, N]⟩) (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (i 1).val)
    (hr1 : ∀ (i : (⟨2, ![M, N]⟩ : Shape).Idx) (q : d.contr.Idx), (d.rhsIdx i q 1).val = (q ⟨0, by omega⟩).val)
    (A : FVec Ideal ⟨2, ![M, K]⟩ φ₁) (B : FVec Ideal ⟨2, ![N, K]⟩ φ₂) (p : Fin M) (o : Fin N) :
    FloatOps.matmul d prec A B (constant (F := Ideal) ⟨2, ![M, N]⟩ .f32 0x00000000#32) (ix2 p o)
      = ∑ k : Fin K, A (ix2 p k) * B (ix2 o k) := by
  rw [Ideal.matmul_constant_zero_apply, ← Equiv.sum_comp (contrEquiv1 d K hr hs).symm]
  refine Finset.sum_congr rfl fun k _ => ?_
  have hk := contrEquiv1_symm_val d K hr hs k
  -- the left factor sits in row `p`, column `k`
  have left : d.lhsIdx (ix2 p o) ((contrEquiv1 d K hr hs).symm k) = ix2 p k := funext fun a => Fin.ext (by
    match a with
    | ⟨0, _⟩ => exact hl0 _ _
    | ⟨1, _⟩ => exact (hl1 _ _).trans hk)
  -- the right factor sits in row `o`, column `k`
  have right : d.rhsIdx (ix2 p o) ((contrEquiv1 d K hr hs).symm k) = ix2 o k := funext fun a => Fin.ext (by
    match a with
    | ⟨0, _⟩ => exact hr0 _ _
    | ⟨1, _⟩ => exact (hr1 _ _).trans hk)
  rw [left, right]

end Cert.LibMatmulRowsByRows

end
-- ==== Proof.BlockValue.lean ====
/-
  What the kernel body stores, read at one entry of its [512, 256] output block.

  The body loads a [512, 4096] block of `x`, a [256, 4096] block of `w` and a [1, 256] block of the bias row, narrows the
  two matrices to bf16 (the identity on extended reals), multiplies rows of the first against rows of the second into a
  zero accumulator, and adds the bias row broadcast down the 512 rows. At `(p, q)` that is
  `(∑ k, xb (p, k) · wb (q, k)) + bb (0, q)`.
-/
import proofs.«168651_j18245021073626_1_alg».proof.Proof.Gen.KernelIdeal.Skeleton
import proofs.«168651_j18245021073626_1_alg».proof.Proof.LibMatmulRowsByRows
import Idealize.ShloMosaic.Lib.Pipeline.Value
import Idealize.ShloMosaic.Lib.ValueLayout

noncomputable section

open scoped BigOperators
open Idealize.ShloMosaic Idealize.ShloMosaic.ValueIdx

namespace Cert.KernelIdeal.Block

open Cert.KernelIdeal Cert.KernelIdeal.Gen

/-! The block product's index maps, axis by axis: a kept axis reads the output index, the contracted axis reads the
    contraction position. -/

theorem left_row (i : S512x256.Idx) (q : dot_S512x4096_S256x4096_S512x256_1_1_0_0_n_n.contr.Idx) :
    (dot_S512x4096_S256x4096_S512x256_1_1_0_0_n_n.lhsIdx i q 0).val = (i 0).val := by
  unfold DotDims.lhsIdx
  rw [dif_neg (show ¬(0 : Fin S512x4096.rank) ∈ dot_S512x4096_S256x4096_S512x256_1_1_0_0_n_n.lhsBatch by decide), dif_pos (show (0 : Fin S512x4096.rank) ∈ dot_S512x4096_S256x4096_S512x256_1_1_0_0_n_n.lhsNonContracting by decide)]
  rfl
theorem left_col (i : S512x256.Idx) (q : dot_S512x4096_S256x4096_S512x256_1_1_0_0_n_n.contr.Idx) :
    (dot_S512x4096_S256x4096_S512x256_1_1_0_0_n_n.lhsIdx i q 1).val = (q ⟨0, by decide⟩).val :=
  dot_S512x4096_S256x4096_S512x256_1_1_0_0_n_n.lhsIdx_val_of_single rfl i q
theorem right_row (i : S512x256.Idx) (q : dot_S512x4096_S256x4096_S512x256_1_1_0_0_n_n.contr.Idx) :
    (dot_S512x4096_S256x4096_S512x256_1_1_0_0_n_n.rhsIdx i q 0).val = (i 1).val := by
  unfold DotDims.rhsIdx
  rw [dif_neg (show ¬(0 : Fin S256x4096.rank) ∈ dot_S512x4096_S256x4096_S512x256_1_1_0_0_n_n.rhsBatch by decide), dif_pos (show (0 : Fin S256x4096.rank) ∈ dot_S512x4096_S256x4096_S512x256_1_1_0_0_n_n.rhsNonContracting by decide)]
  rfl
theorem right_col (i : S512x256.Idx) (q : dot_S512x4096_S256x4096_S512x256_1_1_0_0_n_n.contr.Idx) :
    (dot_S512x4096_S256x4096_S512x256_1_1_0_0_n_n.rhsIdx i q 1).val = (q ⟨0, by decide⟩).val :=
  dot_S512x4096_S256x4096_S512x256_1_1_0_0_n_n.rhsIdx_val_of_single rfl i q

/-- The block product into zero at `(p, q)`: row `p` of the left block against row `q` of the right block. -/
theorem product_apply {φ₁ φ₂ : FTy} (A : FVec Ideal S512x4096 φ₁) (B : FVec Ideal S256x4096 φ₂) (p : Fin 512) (q : Fin 256) :
    matmul dot_S512x4096_S256x4096_S512x256_1_1_0_0_n_n none A B (constant (F := Ideal) S512x256 .f32 0x00000000#32) (ix2 p q)
      = ∑ k : Fin 4096, A (ix2 p k) * B (ix2 q k) :=
  Cert.LibMatmulRowsByRows.matmul_zero_apply (M := 512) (K := 4096) (N := 256)
    dot_S512x4096_S256x4096_S512x256_1_1_0_0_n_n none rfl rfl left_row left_col right_row right_col A B p q

/-- The stored value at `(p, q)`. -/
theorem stored_apply (xb : Vec Ideal S512x4096 .f32) (wb : Vec Ideal S256x4096 .f32) (bb : Vec Ideal S1x256 .f32)
    (p : Fin 512) (q : Fin 256) :
    k0_pay1 (F := Ideal) xb wb bb (ix2 p q) = (∑ k : Fin 4096, xb (ix2 p k) * wb (ix2 q k)) + bb (ix2 (0 : Fin 1) q) := by
  unfold k0_pay1
  rw [addf_apply, product_apply, shapeCast_self, broadcastTo_1b_ab_apply]
  rfl

/-- The same at any index of the block, written by its two coordinates. -/
theorem stored_at (xb : Vec Ideal S512x4096 .f32) (wb : Vec Ideal S256x4096 .f32) (bb : Vec Ideal S1x256 .f32) (j : S512x256.Idx) :
    k0_pay1 (F := Ideal) xb wb bb j = (∑ k : Fin 4096, xb (ix2 (j 0) k) * wb (ix2 (j 1) k)) + bb (ix2 (0 : Fin 1) (j 1)) := by
  obtain ⟨p, q, rfl⟩ : ∃ (p : Fin 512) (q : Fin 256), j = ix2 p q := ⟨j 0, j 1, eq_ix2 j⟩
  exact stored_apply xb wb bb p q

end Cert.KernelIdeal.Block

end
-- ==== Proof.Spec.lean ====
/-
  The function both programs compute, index by index, on the extended reals: the affine map of a linear layer,

      out (t, o) = (∑ k, x (t, k) · w (o, k)) + b (o)

  over x : [8192, 4096], w : [4096, 4096] (one row per output feature), b : [4096].
-/
import Idealize.ShloMosaic.PureOps.Ideal
import Idealize.ShloMosaic.Lib.ValueIdx

noncomputable section

open scoped BigOperators
open Idealize.ShloMosaic Idealize.ShloMosaic.ValueIdx

namespace Cert.Linear

/-- Row `t` of `x` against row `o` of `w`, plus entry `o` of `b`. -/
def affine (x : FVec Ideal ⟨2, ![8192, 4096]⟩ .f32) (w : FVec Ideal ⟨2, ![4096, 4096]⟩ .f32) (b : FVec Ideal ⟨1, ![4096]⟩ .f32) :
    FVec Ideal ⟨2, ![8192, 4096]⟩ .f32 :=
  fun i => (∑ k : Fin 4096, x (ix2 (i 0) k) * w (ix2 (i 1) k)) + b (ix1 (i 1))

theorem affine_apply (x : FVec Ideal ⟨2, ![8192, 4096]⟩ .f32) (w : FVec Ideal ⟨2, ![4096, 4096]⟩ .f32) (b : FVec Ideal ⟨1, ![4096]⟩ .f32)
    (t : Fin 8192) (o : Fin 4096) :
    affine x w b (ix2 t o) = (∑ k : Fin 4096, x (ix2 t k) * w (ix2 o k)) + b (ix1 o) := rfl

end Cert.Linear

end
-- ==== Proof.ArrayValue.lean ====
/-
  From the kernel's blocks to its result array.

  The grid has 16 × 16 points; point `t` is row-tile `t / 16` and column-tile `t % 16`. There the body sees rows
  `512·(t/16) …` of `x`, rows `256·(t%16) …` of `w` (all 4096 columns of each) and columns `256·(t%16) …` of the bias row, and writes
  the [512, 256] tile of the result at that row-tile and column-tile. The stored entry `(p, q)` of the tile is
  `(∑ k, x (512·(t/16) + p, k) · w (256·(t%16) + q, k)) + b (256·(t%16) + q)`, which is the affine map of `Spec.lean` at the entry's
  place in the array; the 256 tiles cover the array, so the array ends holding the affine map.
-/
import proofs.«168651_j18245021073626_1_alg».proof.Proof.Gen.KernelIdeal.Value
import proofs.«168651_j18245021073626_1_alg».proof.Proof.BlockValue
import proofs.«168651_j18245021073626_1_alg».proof.Proof.Spec
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.ArrayValue

open Cert.KernelIdeal Cert.KernelIdeal.Gen Cert.KernelIdeal.Value

variable (m : (ℓ : Loc nD τ sig) → Buf (Elt Ideal) ℓ) (ρ : Dev nD → PrngReg)

theorem zero_offsets : (![0, 0] : Fin 2 → Nat) = fun _ => 0 := funext fun a => by fin_cases a <;> rfl

/-- Every window's block index at point `t`, decided over the 256 points: `x` moves with the row-tile, `w` and the bias
    row with the column-tile, the result with both. -/
theorem tile_of_point : ∀ t : Fin cfg0.N,
      win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = 0 ∧ win0_2.index t (1 : Fin 2) = t.val % 16
    ∧ win0_3.index t (0 : Fin 2) = t.val / 16 ∧ win0_3.index t (1 : Fin 2) = t.val % 16 :=
  (by decide +kernel : ∀ t : Fin grid0.N, _)

/-! ## The input blocks as parts of the argument arrays -/

/-- The block of `x` at point `t` is rows `512·(t/16) …` of the argument. -/
theorem x_block_apply (c : Dev nD) (t : Fin cfg0.N) (y : S512x4096.Idx) (i : S8192x4096.Idx)
    (h0 : (i 0).val = t.val / 16 * 512 + (y 0).val) (h1 : (i 1).val = (y 1).val) :
    (iblk m c 0 t : Vec Ideal S512x4096 .f32) y = (m ((c : Thread nD τ).loc main_arg0) : S8192x4096.Idx → Elt Ideal .f32) i := by
  obtain ⟨e0, e1, -⟩ := tile_of_point t
  unfold iblk
  rw [View.read_apply]
  show V m c main_arg0 _ = _
  rw [V_main_arg0]
  congr 1
  funext a
  apply Fin.ext
  match a with
  | ⟨0, _⟩ => show win0_0.index t (0 : Fin 2) * 512 + 1 * (y 0).val = (i 0).val; rw [e0, h0]; omega
  | ⟨1, _⟩ => show win0_0.index t (1 : Fin 2) * 4096 + 1 * (y 1).val = (i 1).val; rw [e1, h1]; omega

/-- The block of `w` at point `t` is rows `256·(t%16) …` of the argument. -/
theorem w_block_apply (c : Dev nD) (t : Fin cfg0.N) (y : S256x4096.Idx) (i : S4096x4096.Idx)
    (h0 : (i 0).val = t.val % 16 * 256 + (y 0).val) (h1 : (i 1).val = (y 1).val) :
    (iblk m c 1 t : Vec Ideal S256x4096 .f32) y = (m ((c : Thread nD τ).loc main_arg1) : S4096x4096.Idx → Elt Ideal .f32) i := by
  obtain ⟨-, -, e0, e1, -⟩ := tile_of_point t
  unfold iblk
  rw [View.read_apply]
  show V m c main_arg1 _ = _
  rw [V_main_arg1]
  congr 1
  funext a
  apply Fin.ext
  match a with
  | ⟨0, _⟩ => show win0_1.index t (0 : Fin 2) * 256 + 1 * (y 0).val = (i 0).val; rw [e0, h0]; omega
  | ⟨1, _⟩ => show win0_1.index t (1 : Fin 2) * 4096 + 1 * (y 1).val = (i 1).val; rw [e1, h1]; omega

/-- The bias as the region finds it: the argument vector laid out as one row. -/
theorem bias_row_eq (c : Dev nD) :
    (V m c main_v0 : S1x4096.Idx → Elt Ideal .f32)
      = shapeCast S1x4096 (m ((c : Thread nD τ).loc main_arg2) : S4096.Idx → Elt Ideal .f32) shapeCasts_S4096_S1x4096 := by
  dsimp only [Gen.V, Gen.hostOps0]
  after_results
  rfl

/-- Entry `(0, o)` of that row is entry `o` of the argument vector. -/
theorem bias_row_apply (c : Dev nD) (j : S1x4096.Idx) :
    (V m c main_v0 : S1x4096.Idx → Elt Ideal .f32) j = (m ((c : Thread nD τ).loc main_arg2) : S4096.Idx → Elt Ideal .f32) (ix1 (j 1)) := by
  rw [bias_row_eq]
  refine shapeCast_apply _ shapeCasts_S4096_S1x4096 j (ix1 (j 1)) ?_
  rw [Shape.rowMajor_val_one, Shape.rowMajor_val_two]
  have hj : (j 0).val < 1 := (j 0).isLt
  show (j 1).val = (j 0).val * 4096 + (j 1).val
  omega

/-- The block of the bias row at point `t` is entries `256·(t%16) …` of the argument vector. -/
theorem b_block_apply (c : Dev nD) (t : Fin cfg0.N) (y : S1x256.Idx) (o : Fin 4096)
    (h1 : o.val = t.val % 16 * 256 + (y 1).val) :
    (iblk m c 2 t : Vec Ideal S1x256 .f32) y = (m ((c : Thread nD τ).loc main_arg2) : S4096.Idx → Elt Ideal .f32) (ix1 o) := by
  obtain ⟨-, -, -, -, e0, e1, -⟩ := tile_of_point t
  unfold iblk
  rw [View.read_apply]
  show V m c main_v0 _ = _
  rw [bias_row_apply]
  congr 1
  funext a
  apply Fin.ext
  match a with
  | ⟨0, _⟩ => show win0_2.index t (1 : Fin 2) * 256 + 1 * (y 1).val = o.val; rw [e1, h1]; omega

/-! ## What a point writes back, and the array after the run -/

/-- The affine map of the three argument arrays on core `c`. -/
abbrev result (c : Dev nD) : Buf (Elt Ideal) ((c : Thread nD τ).loc main_v1) :=
  Cert.Linear.affine (m ((c : Thread nD τ).loc main_arg0)) (m ((c : Thread nD τ).loc main_arg1)) (m ((c : Thread nD τ).loc main_arg2))

/-- Point `t` writes back tile `t` of the affine map. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero zero_offsets]
  simp only [View.ld_unit_zero (S := S512x4096) zero_offsets, View.ld_unit_zero (S := S256x4096) zero_offsets,
    View.ld_unit_zero (S := S1x256) zero_offsets]
  obtain ⟨-, -, -, -, -, -, e0, e1⟩ := tile_of_point t
  funext j
  show k0_pay1 (F := Ideal) (iblk m c 0 t) (iblk m c 1 t) (iblk m c 2 t) j
    = Cert.Linear.affine (m ((c : Thread nD τ).loc main_arg0)) (m ((c : Thread nD τ).loc main_arg1)) (m ((c : Thread nD τ).loc main_arg2))
        (((cfg0.win 3).blk t).view.emb j)
  refine (Block.stored_at (iblk m c 0 t) (iblk m c 1 t) (iblk m c 2 t) j).trans ?_
  -- the entry's place in the array
  have hj0 : (j 0).val < 512 := (j 0).isLt
  have hj1 : (j 1).val < 256 := (j 1).isLt
  have hrow : ((((cfg0.win 3).blk t).view.emb j) 0).val = t.val / 16 * 512 + (j 0).val := by
    show win0_3.index t (0 : Fin 2) * 512 + 1 * (j 0).val = _; rw [e0]; omega
  have hcol : ((((cfg0.win 3).blk t).view.emb j) 1).val = t.val % 16 * 256 + (j 1).val := by
    show win0_3.index t (1 : Fin 2) * 256 + 1 * (j 1).val = _; rw [e1]; omega
  unfold Cert.Linear.affine
  congr 1
  · refine Finset.sum_congr rfl fun k _ => ?_
    rw [x_block_apply m c t (ix2 (j 0) k) (ix2 ((((cfg0.win 3).blk t).view.emb j) 0) k) hrow rfl,
      w_block_apply m c t (ix2 (j 1) k) (ix2 ((((cfg0.win 3).blk t).view.emb j) 1) k) hcol rfl]
  · exact b_block_apply m c t (ix2 (0 : Fin 1) (j 1)) ((((cfg0.win 3).blk t).view.emb j) 1) hcol

/-- An index of the array is in point `t`'s tile iff each coordinate is in the tile's range on its axis. -/
theorem mem_tile (t : Fin cfg0.N) (i : S8192x4096.Idx) :
    i ∈ ((cfg0.win 3).blk t).view.set ↔ ∀ a : Fin 2, win0_3.index t a * S512x256.size a ≤ (i a).val ∧ (i a).val < win0_3.index t a * S512x256.size a + S512x256.size a := by
  show i ∈ ((View.whole main_v1).slice (win0_3.rect t)).set ↔ _
  rw [View.set_slice_whole, Rect.mem_set_unit]
  exact Iff.rfl

/-- Every index of the array is in some point's tile: row `r`, column `s` is in the tile of point `(r / 512)·16 + s / 256`. -/
theorem covered (i : S8192x4096.Idx) : ∃ t : Fin cfg0.N, (cfg0.win 3).flush t = true ∧ i ∈ ((cfg0.win 3).blk t).view.set := by
  have h0 : (i 0).val < 8192 := (i 0).isLt
  have h1 : (i 1).val < 4096 := (i 1).isLt
  obtain ⟨t, ht⟩ : ∃ t : Fin cfg0.N, t.val = (i 0).val / 512 * 16 + (i 1).val / 256 :=
    ⟨⟨(i 0).val / 512 * 16 + (i 1).val / 256, by show _ < grid0.N; rw [N_0]; omega⟩, rfl⟩
  obtain ⟨-, -, -, -, -, -, e0, e1⟩ := tile_of_point t
  refine ⟨t, flush0_3 t, ?_⟩
  rw [mem_tile]
  intro a
  match a with
  | ⟨0, _⟩ => show win0_3.index t (0 : Fin 2) * 512 ≤ (i 0).val ∧ (i 0).val < win0_3.index t (0 : Fin 2) * 512 + 512; rw [e0, ht]; omega
  | ⟨1, _⟩ => show win0_3.index t (1 : Fin 2) * 256 ≤ (i 1).val ∧ (i 1).val < win0_3.index t (1 : Fin 2) * 256 + 256; rw [e1, ht]; omega

/-- The result array after the run is the affine map of the argument arrays. -/
theorem final (c : Dev nD) : (dats m 0 c).arrAt 3 cfg0.N = result m c :=
  (dats m 0 c).arrAt_eq_of_cover 3 (result m c) (fun t _ => flushed_eq m c t) covered

/-- The kernel's run, read: the result array at the affine map, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.ArrayValue

end
-- ==== Proof.ReferenceValue.lean ====
/-
  The reference's result is the affine map of `Spec.lean`, index by index.

  The reference is a `dot_general` of `x` and `w` contracting the second axis of both, plus `b` broadcast first to a row
  [1, 4096] and then down the 8192 rows. Read at `(t, o)`: the product is the sum over `k` of `x (t, k) · w (o, k)`, the two
  broadcasts read `b` at `o`, and the sum of the two is the specification's value there.
-/
import proofs.«168651_j18245021073626_1_alg».proof.Proof.Gen.ReferenceIdeal.Read
import proofs.«168651_j18245021073626_1_alg».proof.Proof.Spec

noncomputable section

open scoped BigOperators
open Idealize.ShloMosaic Idealize.ShloMosaic.ValueIdx

namespace Cert.ReferenceIdeal.RefValue

open Cert.ReferenceIdeal Cert.ReferenceIdeal.Read

/-- The left operand of the product at `(i, k)` is `x` at row `i 0`, column `k`. -/
theorem left_index (i : S8192x4096.Idx) (k : Fin 4096) : lidx_main_v0 i k = ix2 (i 0) k :=
  funext fun a => Fin.ext (by match a with | ⟨0, _⟩ => rfl | ⟨1, _⟩ => rfl)

/-- The right operand at `(i, k)` is `w` at row `i 1` (the output feature), column `k`. -/
theorem right_index (i : S8192x4096.Idx) (k : Fin 4096) : ridx_main_v0 i k = ix2 (i 1) k :=
  funext fun a => Fin.ext (by match a with | ⟨0, _⟩ => rfl | ⟨1, _⟩ => rfl)

/-- Through both broadcasts the bias is read at the output feature `i 1`. -/
theorem bias_index (i : S8192x4096.Idx) : idx_main_v1 (idx_main_v2 i) = ix1 (i 1) :=
  funext fun a => Fin.ext (by match a with | ⟨0, _⟩ => rfl)

/-- The reference's last stage is the affine map. -/
theorem result_eq (x : FVec Ideal S8192x4096 .f32) (w : FVec Ideal S4096x4096 .f32) (b : FVec Ideal S4096 .f32) :
    val_main_v3 (F := Ideal) x w b = Cert.Linear.affine x w b := by
  funext i
  rw [val_main_v3_apply, val_main_v0_apply, val_main_v2_apply, val_main_v1_apply]
  simp only [left_index, right_index, bias_index]
  rfl

end Cert.ReferenceIdeal.RefValue

end
-- ==== Proof.lean ====
/-
  A linear layer, tiled, against its one-line definition: both compute

      out (t, o) = (∑ k, x (t, k) · w (o, k)) + b (o)        x : [8192, 4096], w : [4096, 4096], b : [4096]

  on the extended reals.

  The kernel walks a 16 × 16 grid of [512, 256] output tiles. For a tile it loads 512 rows of `x`, 256 rows of `w` and
  256 entries of the bias (laid out beforehand as one row), narrows the two matrices to bf16 — no change to an extended
  real —, multiplies rows against rows into a zero accumulator over the whole contraction axis, and adds the bias row
  to every row of the tile. The reference is one `dot_general` contracting the second axis of both operands plus the bias
  broadcast down the rows. Entry by entry the two are the same sum and the same bias entry, so no law of the extended
  reals beyond `0 + s = s` for the accumulator is used, and the inputs' finiteness is never opened.

  `Spec.lean` states the affine map; `ReferenceValue.lean` reads the reference's stages at an index and finds it;
  `BlockValue.lean` reads the kernel body's stored tile at an entry (the block product through
  `LibMatmulRowsByRows.lean`); `ArrayValue.lean` places each tile in the array and shows the tiles cover it. Here the
  five claims are assembled: the frames, the empty list of idealization rewrites, and the equality of the two results.
-/
import proofs.«168651_j18245021073626_1_alg».proof.Defs
import proofs.«168651_j18245021073626_1_alg».proof.Proof.Gen.Kernel
import proofs.«168651_j18245021073626_1_alg».proof.Proof.Gen.Kernel.Skeleton
import proofs.«168651_j18245021073626_1_alg».proof.Proof.Gen.Kernel.Launch
import proofs.«168651_j18245021073626_1_alg».proof.Proof.Gen.Kernel.Points
import proofs.«168651_j18245021073626_1_alg».proof.Proof.Gen.Kernel.Frame
import proofs.«168651_j18245021073626_1_alg».proof.Proof.Gen.KernelIdeal
import proofs.«168651_j18245021073626_1_alg».proof.Proof.Gen.KernelIdeal.Skeleton
import proofs.«168651_j18245021073626_1_alg».proof.Proof.Gen.KernelIdeal.Launch
import proofs.«168651_j18245021073626_1_alg».proof.Proof.Gen.KernelIdeal.Points
import proofs.«168651_j18245021073626_1_alg».proof.Proof.Gen.KernelIdeal.Frame
import proofs.«168651_j18245021073626_1_alg».proof.Proof.Gen.ReferenceIdeal
import proofs.«168651_j18245021073626_1_alg».proof.Proof.Gen.Pre_finite_inputs
import proofs.«168651_j18245021073626_1_alg».proof.Proof.Gen.KernelIdeal.Value
import proofs.«168651_j18245021073626_1_alg».proof.Proof.Gen.ReferenceIdeal.Run
import proofs.«168651_j18245021073626_1_alg».proof.Proof.Gen.ReferenceIdeal.Read
import proofs.«168651_j18245021073626_1_alg».proof.Proof.ArrayValue
import proofs.«168651_j18245021073626_1_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel runs to the end and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs to the end with its arguments unchanged: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The kernel's result array ends at the affine map of its arguments and so does the reference's, of arguments that
    agree: equal results. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
